-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128 : Shape := ⟨1, ![128]⟩
abbrev S1000000x64 : Shape := ⟨2, ![1000000, 64]⟩
abbrev S192x64 : Shape := ⟨2, ![192, 64]⟩
abbrev S64 : Shape := ⟨1, ![64]⟩
abbrev S64x64 : Shape := ⟨2, ![64, 64]⟩
abbrev S_ : Shape := ⟨0, ![]⟩

class Facts : Prop where
  bcast_S_S128 : S_.BroadcastsInDim S128 (![] : Fin 0 → Fin S128.rank)
  reducesTo_S128_S_d0 : S128.ReducesTo [0] S_
  h_S_ : 0 < S_.numel
  bcast_S_S1000000x64 : S_.BroadcastsInDim S1000000x64 (![] : Fin 0 → Fin S1000000x64.rank)
  reducesTo_S1000000x64_S_d0_1 : S1000000x64.ReducesTo [0, 1] S_
  bcast_S_S192x64 : S_.BroadcastsInDim S192x64 (![] : Fin 0 → Fin S192x64.rank)
  reducesTo_S192x64_S_d0_1 : S192x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg4 : FVec F S64 .f32) (main_arg5 : FVec F S64x64 .f32) (main_arg6 : FVec F S64 .f32) (main_v13 : IVec S_ 1) (main_v16 : IVec S192x64 1) : IVec S_ 1 :=
  let main_c_5 : IVec S_ 1 := constantI S_ 1 1#1
  let main_v17 : IVec S_ 1 := (fun x v => Host.reduce IntOp.andi x v reducesTo_S192x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S128 .f32) (main_arg1 : FVec F S1000000x64 .f32) (main_arg2 : FVec F S1000000x64 .f32) (main_arg3 : FVec F S192x64 .f32) (main_arg4 : FVec F S64 .f32) (main_arg5 : FVec F S64x64 .f32) (main_arg6 : FVec F S64 .f32) : IVec S_ 1 :=
  let main_v0 : FVec F S128 .f32 := Host.absf main_arg0
  let main_cst : FVec F S_ .f32 := constant S_ .f32 0x7F800000#32
  let main_v1 : FVec F S128 .f32 := broadcastInDim S128 ![] bcast_S_S128 main_cst
  let main_v2 : IVec S128 1 := cmpf .olt main_v0 main_v1
  let main_c : IVec S_ 1 := constantI S_ 1 1#1
  let main_v3 : IVec S_ 1 := (fun x v => Host.reduce IntOp.andi x v reducesTo_S128_S_d0 h_S_) main_v2 main_c
  let main_v4 : FVec F S1000000x64 .f32 := Host.absf main_arg1
  let main_cst_0 : FVec F S_ .f32 := constant S_ .f32 0x7F800000#32
  let main_v5 : FVec F S1000000x64 .f32 := broadcastInDim S1000000x64 ![] bcast_S_S1000000x64 main_cst_0
  let main_v6 : IVec S1000000x64 1 := cmpf .olt main_v4 main_v5
  let main_c_1 : IVec S_ 1 := constantI S_ 1 1#1
  let main_v7 : IVec S_ 1 := (fun x v => Host.reduce IntOp.andi x v reducesTo_S1000000x64_S_d0_1 h_S_) main_v6 main_c_1
  let main_v8 : IVec S_ 1 := andi main_v3 main_v7
  let main_v9 : FVec F S1000000x64 .f32 := Host.absf main_arg2
  let main_cst_2 : FVec F S_ .f32 := constant S_ .f32 0x7F800000#32
  let main_v10 : FVec F S1000000x64 .f32 := broadcastInDim S1000000x64 ![] bcast_S_S1000000x64 main_cst_2
  let main_v11 : IVec S1000000x64 1 := cmpf .olt main_v9 main_v10
  let main_c_3 : IVec S_ 1 := constantI S_ 1 1#1
  let main_v12 : IVec S_ 1 := (fun x v => Host.reduce IntOp.andi x v reducesTo_S1000000x64_S_d0_1 h_S_) main_v11 main_c_3
  let main_v13 : IVec S_ 1 := andi main_v8 main_v12
  let main_v14 : FVec F S192x64 .f32 := Host.absf main_arg3
  let main_cst_4 : FVec F S_ .f32 := constant S_ .f32 0x7F800000#32
  let main_v15 : FVec F S192x64 .f32 := broadcastInDim S192x64 ![] bcast_S_S192x64 main_cst_4
  let main_v16 : IVec S192x64 1 := cmpf .olt main_v14 main_v15
  fn_part1 (F := F) main_arg4 main_arg5 main_arg6 main_v13 main_v16
-- ==== Kernel.lean ====
abbrev S128 : Shape := ⟨1, ![128]⟩
abbrev S1000000x64 : Shape := ⟨2, ![1000000, 64]⟩
abbrev S192x64 : Shape := ⟨2, ![192, 64]⟩
abbrev S64 : Shape := ⟨1, ![64]⟩
abbrev S64x64 : Shape := ⟨2, ![64, 64]⟩
abbrev S128x64 : Shape := ⟨2, ![128, 64]⟩
abbrev S1x128 : Shape := ⟨2, ![1, 128]⟩
abbrev S1x64 : Shape := ⟨2, ![1, 64]⟩
abbrev S10000x64 : Shape := ⟨2, ![10000, 64]⟩
abbrev S10000 : Shape := ⟨1, ![10000]⟩
abbrev S10000x1 : Shape := ⟨2, ![10000, 1]⟩

abbrev nBuf : Space → Nat
  | .hbm => 14
  | .vmem => 10
  | .smem => 0
  | _ => 0

abbrev bufTy : (tb : Table) → Fin (tcTables nBuf tb) → BufTy
  | .hbm, ⟨0, _⟩ => ⟨S128, .f32⟩
  | .hbm, ⟨1, _⟩ => ⟨S1000000x64, .f32⟩
  | .hbm, ⟨2, _⟩ => ⟨S1000000x64, .f32⟩
  | .hbm, ⟨3, _⟩ => ⟨S192x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S128x64, .f32⟩
  | .hbm, ⟨8, _⟩ => ⟨S64x64, .f32⟩
  | .hbm, ⟨9, _⟩ => ⟨S1x128, .f32⟩
  | .hbm, ⟨10, _⟩ => ⟨S1x64, .f32⟩
  | .hbm, ⟨11, _⟩ => ⟨S64, .f32⟩
  | .hbm, ⟨12, _⟩ => ⟨S64, .f32⟩
  | .hbm, ⟨13, _⟩ => ⟨S1000000x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S64, .f32⟩
  | .local _ .vmem, ⟨6, _⟩ => ⟨S64x64, .f32⟩
  | .local _ .vmem, ⟨7, _⟩ => ⟨S64, .f32⟩
  | .local _ .vmem, ⟨8, _⟩ => ⟨S10000x64, .f32⟩
  | .local _ .vmem, ⟨9, _⟩ => ⟨S10000x64, .f32⟩
  | _, _ => ⟨S128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S192x64_S128x64_0_0 : S192x64.Slices ![0, 0] S128x64
  slices_S192x64_S64x64_128_0 : S192x64.Slices ![128, 0] S64x64
  shapeCasts_S128_S1x128 : S128.ShapeCasts S1x128
  shapeCasts_S1x64_S64 : S1x64.ShapeCasts S64
  inb_S10000x64_S10000x64_0_0 : ∀ a, (![0, 0] : Fin 2 → Nat) a + S10000x64.size a ≤ S10000x64.size a
  h_S10000x64 : 0 < S10000x64.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64_S64_0 : ∀ a, (![0] : Fin 1 → Nat) a + S64.size a ≤ S64.size a
  h_S64 : 0 < S64.numel
  shapeCasts_S64_S64 : S64.ShapeCasts S64
  bitsLt_bf16_f32 : FTy.bits .bf16 < FTy.bits .f32
  shapeCasts_S64_S1x64 : S64.ShapeCasts S1x64
  broadcasts_S1x64_S10000x64 : S1x64.Broadcasts S10000x64
  reduces_S10000x64_S10000 : S10000x64.Reduces [1] S10000
  shapeCasts_S10000_S10000x1 : S10000.ShapeCasts S10000x1
  broadcasts_S10000x1_S10000x64 : S10000x1.Broadcasts S10000x64
  dot_S1x128_S128x64_S1x64_1_0_0_1_n_n_wf : DotDims.WF S1x128 S128x64 S1x64 [1] [0] [0] [1] [] []
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S1000000x64.size a
  hwx0_0 : ∀ i : grid0.Coords, EltTy.bits .f32 = 32 ∨ (Rect.block (s := S1000000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S1000000x64.size a
  hwx0_1 : ∀ i : grid0.Coords, EltTy.bits .f32 = 32 ∨ (Rect.block (s := S1000000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x64.size a ≤ S1000000x64.size a
  hwx0_6 : ∀ i : grid0.Coords, EltTy.bits .f32 = 32 ∨ (Rect.block (s := S1000000x64) S10000x64.size (cc0_transform_6 i) (hinb0_6 i)).WholeWords (EltTy.packing .f32)

variable [Facts₀]

def dot_S1x128_S128x64_S1x64_1_0_0_1_n_n : DotDims S1x128 S128x64 S1x64 where
  lhsContracting := [1]
  rhsContracting := [0]
  lhsNonContracting := [0]
  rhsNonContracting := [1]
  lhsBatch := []
  rhsBatch := []
  wf := dot_S1x128_S128x64_S1x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg1) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S10000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S128 : Shape := ⟨1, ![128]⟩
abbrev S1000000x64 : Shape := ⟨2, ![1000000, 64]⟩
abbrev S192x64 : Shape := ⟨2, ![192, 64]⟩
abbrev S64 : Shape := ⟨1, ![64]⟩
abbrev S64x64 : Shape := ⟨2, ![64, 64]⟩
abbrev S1000000x128 : Shape := ⟨2, ![1000000, 128]⟩
abbrev S1000000x192 : Shape := ⟨2, ![1000000, 192]⟩
abbrev S1x64 : Shape := ⟨2, ![1, 64]⟩
abbrev S_ : Shape := ⟨0, ![]⟩
abbrev S1000000 : Shape := ⟨1, ![1000000]⟩
abbrev S1000000x1 : Shape := ⟨2, ![1000000, 1]⟩

abbrev nBuf : Space → Nat
  | .hbm => 41
  | .vmem => 0
  | .smem => 0
  | _ => 0

abbrev bufTy : (tb : Table) → Fin (tcTables nBuf tb) → BufTy
  | .hbm, ⟨0, _⟩ => ⟨S128, .f32⟩
  | .hbm, ⟨1, _⟩ => ⟨S1000000x64, .f32⟩
  | .hbm, ⟨2, _⟩ => ⟨S1000000x64, .f32⟩
  | .hbm, ⟨3, _⟩ => ⟨S192x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S1000000x128, .f32⟩
  | .hbm, ⟨8, _⟩ => ⟨S1000000x192, .f32⟩
  | .hbm, ⟨9, _⟩ => ⟨S1000000x64, .f32⟩
  | .hbm, ⟨10, _⟩ => ⟨S1x64, .f32⟩
  | .hbm, ⟨11, _⟩ => ⟨S1000000x64, .f32⟩
  | .hbm, ⟨12, _⟩ => ⟨S1000000x64, .f32⟩
  | .hbm, ⟨13, _⟩ => ⟨S_, .f32⟩
  | .hbm, ⟨14, _⟩ => ⟨S1000000x64, .f32⟩
  | .hbm, ⟨15, _⟩ => ⟨S1000000x64, .f32⟩
  | .hbm, ⟨16, _⟩ => ⟨S1000000x64, .f32⟩
  | .hbm, ⟨17, _⟩ => ⟨S1x64, .f32⟩
  | .hbm, ⟨18, _⟩ => ⟨S1000000x64, .f32⟩
  | .hbm, ⟨19, _⟩ => ⟨S1000000x64, .f32⟩
  | .hbm, ⟨20, _⟩ => ⟨S1000000x64, .f32⟩
  | .hbm, ⟨21, _⟩ => ⟨S1000000x64, .f32⟩
  | .hbm, ⟨22, _⟩ => ⟨S_, .f32⟩
  | .hbm, ⟨23, _⟩ => ⟨S1000000, .f32⟩
  | .hbm, ⟨24, _⟩ => ⟨S1000000x1, .f32⟩
  | .hbm, ⟨25, _⟩ => ⟨S1000000x1, .f32⟩
  | .hbm, ⟨26, _⟩ => ⟨S_, .f32⟩
  | .hbm, ⟨27, _⟩ => ⟨S1000000x1, .f32⟩
  | .hbm, ⟨28, _⟩ => ⟨S1000000x1, .i1⟩
  | .hbm, ⟨29, _⟩ => ⟨S_, .f32⟩
  | .hbm, ⟨30, _⟩ => ⟨S1000000x1, .f32⟩
  | .hbm, ⟨31, _⟩ => ⟨S1000000x1, .f32⟩
  | .hbm, ⟨32, _⟩ => ⟨S_, .f32⟩
  | .hbm, ⟨33, _⟩ => ⟨S1000000x1, .f32⟩
  | .hbm, ⟨34, _⟩ => ⟨S1000000x1, .f32⟩
  | .hbm, ⟨35, _⟩ => ⟨S_, .f32⟩
  | .hbm, ⟨36, _⟩ => ⟨S_, .f32⟩
  | .hbm, ⟨37, _⟩ => ⟨S1000000x1, .f32⟩
  | .hbm, ⟨38, _⟩ => ⟨S1000000x1, .f32⟩
  | .hbm, ⟨39, _⟩ => ⟨S1000000x64, .f32⟩
  | .hbm, ⟨40, _⟩ => ⟨S1000000x64, .f32⟩
  | _, _ => ⟨S128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_cst : Ref sig .tc := ⟨.hbm, 13, rfl⟩
abbrev main_call0_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_call1_v0 : Ref sig .tc := ⟨.hbm, 21, rfl⟩
abbrev main_call1_cst : Ref sig .tc := ⟨.hbm, 22, rfl⟩
abbrev main_call1_v1 : Ref sig .tc := ⟨.hbm, 23, rfl⟩
abbrev main_call1_v2 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_cst_0 : Ref sig .tc := ⟨.hbm, 29, rfl⟩
abbrev main_v15 : Ref sig .tc := ⟨.hbm, 30, rfl⟩
abbrev main_v16 : Ref sig .tc := ⟨.hbm, 31, rfl⟩
abbrev main_cst_1 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_call2_v0 : Ref sig .tc := ⟨.hbm, 36, rfl⟩
abbrev main_call2_v1 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩

abbrev nD : Nat := 1
abbrev τ : Topo := Topo.v7x

variable {F : FTy → Type} [FloatOps F]

class Facts₀ : Prop where
  bcast_S128_S1000000x128_1 : S128.BroadcastsInDim S1000000x128 (![1] : Fin 1 → Fin S1000000x128.rank)
  concatenates_S1000000x128_S1000000x64_S1000000x192_d1 : Shape.Concatenates [S1000000x128, S1000000x64] S1000000x192 1
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  reducesTo_S1000000x64_S1000000_d1 : S1000000x64.ReducesTo [1] S1000000
  h_S_ : 0 < S_.numel
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1000000x1_S1000000x64_0_1 : S1000000x1.BroadcastsInDim S1000000x64 (![0, 1] : Fin 2 → Fin S1000000x64.rank)
  dot_S1000000x192_S192x64_S1000000x64_1_0_0_1_n_n_wf : DotDims.WF S1000000x192 S192x64 S1000000x64 [1] [0] [0] [1] [] []
  dot_S1000000x64_S64x64_S1000000x64_1_0_0_1_n_n_wf : DotDims.WF S1000000x64 S64x64 S1000000x64 [1] [0] [0] [1] [] []

variable [Facts₀]

def dot_S1000000x192_S192x64_S1000000x64_1_0_0_1_n_n : DotDims S1000000x192 S192x64 S1000000x64 where
  lhsContracting := [1]
  rhsContracting := [0]
  lhsNonContracting := [0]
  rhsNonContracting := [1]
  lhsBatch := []
  rhsBatch := []
  wf := dot_S1000000x192_S192x64_S1000000x64_1_0_0_1_n_n_wf
def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf

class Facts : Prop extends Facts₀ where

variable [Facts]
-- ==== Proof.EdgeMessage.lean ====
/-
  What both programs compute, one edge at a time, over the extended reals.

  For edge e with relation features M[e, ·] (64 numbers) and the one node latent z (128 numbers), the first layer's
  pre-activation at hidden unit j is the contraction of the concatenated row (z, M[e, ·]) with the 192 rows of W1,
  plus b1[j]. Because z is the same for every edge, that contraction splits into a part that does not depend on
  the edge — the latent's 128 products plus b1[j], the "latent bias" — and the edge's own 64 products against rows
  128 … 191 of W1. The split is a sum over 192 indices cut at 128, followed by re-associating and commuting
  additions; both hold on the extended reals without any finiteness assumption, since addition there is a
  commutative monoid.

  After the first layer the two programs agree operation by operation: relu against the word of 0.0, the second
  layer W2 and b2, the product with the edge's weights f[e, ·], the Euclidean norm of the resulting message row, and
  the factor 1 / max(norm, 1) where norm > 1 and 1 elsewhere.
-/
import Idealize.ShloMosaic.PureOps.Ideal
import Idealize.ShloMosaic.PureOps.Ideal.Laws
import Idealize.ShloMosaic.Lib.ValueIdx

noncomputable section

namespace Cert.EdgeMessage

open Idealize.ShloMosaic Idealize.ShloMosaic.ValueIdx

/-- The extended real denoted by the f32 word of 0.0. -/
abbrev zeroW : EReal := Ideal.ofBits .f32 0x00000000#32
/-- The extended real denoted by the f32 word of 1.0. -/
abbrev oneW : EReal := Ideal.ofBits .f32 0x3F800000#32

/-- Row k of the upper part of W1 (rows 0 … 127, which meet the node latent). -/
abbrev latentRow (k : Fin 128) : Fin 192 := ⟨k.val, by omega⟩
/-- Row k of the lower part of W1 (rows 128 … 191, which meet the relation features). -/
abbrev relationRow (k : Fin 64) : Fin 192 := ⟨128 + k.val, by omega⟩

section FirstLayer

variable (z : FVec Ideal ⟨1, ![128]⟩ .f32) (M : FVec Ideal ⟨2, ![1000000, 64]⟩ .f32)
  (W1 : FVec Ideal ⟨2, ![192, 64]⟩ .f32) (b1 : FVec Ideal ⟨1, ![64]⟩ .f32)

/-- The edge-independent part of the first layer at hidden unit j: the latent against the upper rows of W1, plus b1. -/
def latentBias (j : Fin 64) : EReal :=
  (∑ k : Fin 128, z (ix1 k) * W1 (ix2 (latentRow k) j)) + b1 (ix1 j)

/-- The first layer's pre-activation of edge e at hidden unit j, with the latent's part hoisted:
    the edge's relation features against the lower rows of W1, plus the latent bias. -/
def preAct (e : Fin 1000000) (j : Fin 64) : EReal :=
  (∑ k : Fin 64, M (ix2 e k) * W1 (ix2 (relationRow k) j)) + latentBias z W1 b1 j

/-- Entry k of the concatenated input row of edge e: the latent on columns 0 … 127, the relation features after. -/
def concatRow (e : Fin 1000000) (k : Fin 192) : EReal :=
  if h : k.val < 128 then z (ix1 ⟨k.val, h⟩) else M (ix2 e ⟨k.val - 128, by omega⟩)

/-- The same pre-activation as one contraction of the concatenated row with all of W1, plus b1. -/
def preActConcat (e : Fin 1000000) (j : Fin 64) : EReal :=
  (∑ k : Fin 192, concatRow z M e k * W1 (ix2 k j)) + b1 (ix1 j)

/-- A sum over 192 indices is the sum over the first 128 plus the sum over the last 64. -/
theorem sum_cut (f : Fin 192 → EReal) :
    ∑ k : Fin 192, f k = (∑ k : Fin 128, f (latentRow k)) + ∑ k : Fin 64, f (relationRow k) :=
  Fin.sum_univ_add (a := 128) (b := 64) f

/-- Hoisting the latent's share of the contraction out of the edge's does not change the pre-activation. -/
theorem preActConcat_eq (e : Fin 1000000) (j : Fin 64) : preActConcat z M W1 b1 e j = preAct z M W1 b1 e j := by
  unfold preActConcat preAct latentBias
  rw [sum_cut]
  have hl : ∀ k : Fin 128, concatRow z M e (latentRow k) = z (ix1 k) := fun k => by
    unfold concatRow; rw [dif_pos (show (latentRow k).val < 128 from k.isLt)]
  have hr : ∀ k : Fin 64, concatRow z M e (relationRow k) = M (ix2 e k) := fun k => by
    unfold concatRow
    rw [dif_neg (show ¬ (relationRow k).val < 128 from by show ¬ (128 + k.val < 128); omega)]
    exact congrArg (fun q => M (ix2 e q)) (Fin.ext (by show 128 + k.val - 128 = k.val; omega))
  simp only [hl, hr]
  rw [add_comm (∑ k : Fin 128, _) (∑ k : Fin 64, _), add_assoc]

end FirstLayer

section Tail

variable (p f : Fin 64 → EReal) (W2 : FVec Ideal ⟨2, ![64, 64]⟩ .f32) (b2 : FVec Ideal ⟨1, ![64]⟩ .f32)

/-- The message of an edge with pre-activations p and weights f, at output unit j: relu, the second layer, the weights. -/
def message (j : Fin 64) : EReal :=
  ((∑ k : Fin 64, max (p k) zeroW * W2 (ix2 k j)) + b2 (ix1 j)) * f j

/-- The Euclidean norm of a row of 64 numbers. -/
def rowNorm (v : Fin 64 → EReal) : EReal := Ideal.sqrt (∑ j : Fin 64, v j * v j)

/-- The clamp factor of a row of norm n: 1 / max(n, 1) where n > 1, else 1. -/
def clampFactor (n : EReal) : EReal :=
  Scalar.select (Ideal.cmp .ogt n oneW) (Ideal.div oneW (max n oneW)) oneW

/-- The edge's output at unit j: its message scaled by the clamp factor of the message row's norm. -/
def clamped (j : Fin 64) : EReal :=
  message p f W2 b2 j * clampFactor (rowNorm (message p f W2 b2))

end Tail

/-- THE RESULT: entry (e, j) of the output array, as one function of the seven argument arrays. -/
def result (z : FVec Ideal ⟨1, ![128]⟩ .f32) (M fw : FVec Ideal ⟨2, ![1000000, 64]⟩ .f32)
    (W1 : FVec Ideal ⟨2, ![192, 64]⟩ .f32) (b1 : FVec Ideal ⟨1, ![64]⟩ .f32)
    (W2 : FVec Ideal ⟨2, ![64, 64]⟩ .f32) (b2 : FVec Ideal ⟨1, ![64]⟩ .f32) : FVec Ideal ⟨2, ![1000000, 64]⟩ .f32 :=
  fun i => clamped (preAct z M W1 b1 (i 0)) (fun k => fw (ix2 (i 0) k)) W2 b2 (i 1)

end Cert.EdgeMessage

end
-- ==== Proof.KernelBody.lean ====
/-
  The kernel body's stored value, read at an entry of its block.

  One grid point holds 10000 edges. The body's one store writes, at row p and column q of the block, the clamped
  message of Proof/EdgeMessage.lean for the edge in row p: the pre-activations are the row of the relation-feature
  block against the 64 × 64 weight block plus the bias vector, and the weights are the row of the second input block.
  The two matrix products are sums over the 64 contracted coordinates, the row sum of the squared message is a sum over
  the 64 lanes, and the three layout steps (a vector as one row broadcast down the block, a vector of row sums as one
  column, that column broadcast across the block) each read their operand at the evident coordinate.
-/
import proofs.«146558_j335007449151_1_alg».proof.Proof.Gen.KernelIdeal.Skeleton
import proofs.«146558_j335007449151_1_alg».proof.Proof.EdgeMessage
import Idealize.ShloMosaic.Lib.ValueIdx
import Idealize.ShloMosaic.Lib.ValueLayout
import Idealize.ShloMosaic.Lib.Pipeline.Value
import Idealize.ShloMosaic.PureOps.Ideal.Laws

noncomputable section

namespace Cert.EdgeMessage.KernelBody

open Cert.KernelIdeal Cert.KernelIdeal.Gen
open Idealize.ShloMosaic Idealize.ShloMosaic.ValueIdx Cert.EdgeMessage

/-! ## The block's matrix product at an entry -/

theorem lhs_axis0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_axis1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs_axis0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs_axis1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A [10000, 64] by [64, 64] product into the zero block, at (p, q): the sum over k of row p at k times column q at k. -/
theorem product_at {φ₁ φ₂ : FTy} (a : FVec Ideal S10000x64 φ₁) (w : FVec Ideal S64x64 φ₂) (p : Fin 10000) (q : Fin 64) :
    matmul dot_S10000x64_S64x64_S10000x64_1_0_0_1_n_n none a w (constant (F := Ideal) S10000x64 .f32 0x00000000#32) (ix2 p q)
      = ∑ k : Fin 64, a (ix2 p k) * w (ix2 k q) := by
  simp only [matmul]
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 p q) ((ValueIdx.contrEquiv1 dot_S10000x64_S64x64_S10000x64_1_0_0_1_n_n 64 rfl rfl).symm k) = ix2 p k := funext fun ax => Fin.ext (by
    match ax with
    | ⟨0, _⟩ => exact lhs_axis0 _ _
    | ⟨1, _⟩ => exact (lhs_axis1 _ _).trans hk)
  have er : dot_S10000x64_S64x64_S10000x64_1_0_0_1_n_n.rhsIdx (ix2 p q) ((ValueIdx.contrEquiv1 dot_S10000x64_S64x64_S10000x64_1_0_0_1_n_n 64 rfl rfl).symm k) = ix2 k q := funext fun ax => Fin.ext (by
    match ax with
    | ⟨0, _⟩ => exact (rhs_axis0 _ _).trans hk
    | ⟨1, _⟩ => exact rhs_axis1 _ _)
  rw [el, er]

/-! ## The layout steps at an entry -/

/-- A vector of 64 laid as one row and broadcast down the block reads, at (p, q), the vector at q. -/
theorem rowVector_at {α : Type} (v : S64.Idx → α) (h1 : S64.ShapeCasts S1x64) (h2 : S1x64.Broadcasts S10000x64)
    (p : Fin 10000) (q : Fin 64) : broadcastTo S10000x64 (shapeCast S1x64 v h1) h2 (ix2 p q) = v (ix1 q) :=
  (broadcastTo_1b_ab_apply (shapeCast S1x64 v h1) h2 p q).trans (shapeCast_a_1a_apply v h1 0 q)

/-- A vector of 10000 laid as one column reads, at (p, 0), the vector at p. -/
theorem column_at {α : Type} (v : S10000.Idx → α) (h : S10000.ShapeCasts S10000x1) (p : Fin 10000) :
    shapeCast S10000x1 v h (ix2 p (0 : Fin 1)) = v (ix1 p) :=
  shapeCast_apply v h _ _ (by
    rw [Shape.rowMajor_val_two, Shape.rowMajor_val_one]
    show p.val = p.val * 1 + 0
    omega)

/-- A column broadcast across the block reads, at (p, q), the column at (p, 0). -/
theorem acrossRow_at {α : Type} (s : S10000x1.Idx → α) (h : S10000x1.Broadcasts S10000x64) (p : Fin 10000) (q : Fin 64) :
    broadcastTo S10000x64 s h (ix2 p q) = s (ix2 p (0 : Fin 1)) := by
  refine broadcastTo_apply s h (ix2 p q) (ix2 p (0 : Fin 1)) fun ax => ?_
  match ax with
  | ⟨0, _⟩ =>
    show p.val = if (10000 : Nat) = 1 then 0 else p.val
    rw [if_neg (by decide)]
  | ⟨1, _⟩ => rfl

/-- The sum of a block's row p over its 64 lanes. -/
theorem laneSum_at (v : FVec Ideal S10000x64 .f32) (h : S10000x64.Reduces [1] S10000) (hφ : FTy.f32 = FTy.f32 ∨ FTy.f32 = FTy.bf16)
    (hacc : (0x00000000#32 : BitVec 32) = 0x00000000#32) (p : Fin 10000) :
    multiReduction (F := Ideal) .add [1] S10000 v 0x00000000#32 h hφ hacc (ix1 p) = ∑ k : Fin 64, v (ix2 p k) := by
  refine (Ideal.multiReduction_add_single v 0x00000000#32 h hφ hacc (ix1 p)).trans ?_
  refine Finset.sum_congr rfl fun k _ => ?_
  exact congrArg v (funext fun ax => Fin.ext (by match ax with | ⟨0, _⟩ => rfl | ⟨1, _⟩ => rfl))

theorem sqrt_at {s : Shape} (v : FVec Ideal s .f32) (i : s.Idx) : sqrt v i = Ideal.sqrt (v i) := rfl

/-! ## The stored value -/

/-- THE BODY'S STORE at (p, q) of the block: the clamped message of the edge in row p, its pre-activations the row of the
    feature block x0 against the weight block x2 plus the bias x3, its weights the row of x1. -/
theorem stored_at (x0 x1 : Vec Ideal S10000x64 .f32) (x2 : Vec Ideal S64x64 .f32) (x3 : Vec Ideal S64 .f32)
    (x4 : Vec Ideal S64x64 .f32) (x5 : Vec Ideal S64 .f32) (p : Fin 10000) (q : Fin 64) :
    k0_pay1 (F := Ideal) x0 x1 x2 x3 x4 x5 (ix2 p q)
      = clamped (fun j => (∑ k : Fin 64, x0 (ix2 p k) * x2 (ix2 k j)) + x3 (ix1 j)) (fun k => x1 (ix2 p k)) x4 x5 q := by
  unfold k0_pay1 clamped clampFactor rowNorm message
  simp only [mulf_apply, addf_apply, maximumf_apply, truncf_apply, broadcast_apply, cmpf_apply, select_apply, divf_apply,
    sqrt_at, product_at, rowVector_at, column_at, acrossRow_at, shapeCast_self]
  -- the row sum of the squared message, read lane by lane
  rw [laneSum_at]
  simp only [mulf_apply, addf_apply, maximumf_apply, truncf_apply, broadcast_apply, product_at, rowVector_at,
    shapeCast_self]
  rfl

end Cert.EdgeMessage.KernelBody

end
-- ==== Proof.KernelSide.lean ====
/-
  The kernel program computes the result function of Proof/EdgeMessage.lean.

  Before the one region, the host code cuts W1 at row 128: the lower 64 rows become the region's weight block, and the
  upper 128 rows meet the node latent in a [1,128] by [128,64] product whose one row, plus b1, is the latent bias the
  region receives as a vector of 64. The region has 100 grid points; point t stages rows 10000 t … 10000 t + 9999 of the
  relation features and of the edge weights, the four small arrays whole, and writes rows 10000 t … 10000 t + 9999 of the
  output. What a point writes is, entry by entry, the body's stored value (Proof/KernelBody.lean) of those blocks, which is
  the result function at the edge 10000 t + r. The 100 row blocks tile the output array, so after the run it holds the
  result function everywhere.
-/
import proofs.«146558_j335007449151_1_alg».proof.Proof.Gen.KernelIdeal.Value
import proofs.«146558_j335007449151_1_alg».proof.Proof.KernelBody
import Idealize.ShloMosaic.Lib.StableHlo.Run
import Idealize.ShloMosaic.Lib.Tactic

noncomputable section

namespace Cert.EdgeMessage.KernelSide

open Cert.KernelIdeal Cert.KernelIdeal.Gen
open Idealize.ShloMosaic Idealize.ShloMosaic.TcCoe Idealize.SL.Sem Idealize.ShloMosaic.StableHlo
open Idealize.ShloMosaic.ValueIdx Cert.EdgeMessage
open Idealize.ShloMosaic.Pipeline (Dat)

variable (m : (ℓ : Loc nD τ sig) → Buf (Elt Ideal) ℓ) (ρ : Dev nD → PrngReg)

/-- The result function of the seven argument arrays as launched, as the contents of the output buffer. -/
abbrev outArr (c : Dev nD) : Buf (Elt Ideal) ((c : Thread nD τ).loc main_v6) :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-! ## What the host code hands the region -/

/-- The region's weight block is the lower 64 rows of W1. -/
theorem weightBlock_at (c : Dev nD) (k j : Fin 64) :
    (V m c main_v1 : S64x64.Idx → EReal) (ix2 k j)
      = (m ((c : Thread nD τ).loc main_arg3) : S192x64.Idx → EReal) (ix2 (relationRow k) j) := by
  have e : (V m c main_v1 : S64x64.Idx → EReal)
      = extractStridedSlice S64x64 ![128, 0] (m ((c : Thread nD τ).loc main_arg3)) slices_S192x64_S64x64_128_0 := by
    dsimp only [Gen.V, Gen.hostOps0]; after_results
  rw [e]
  refine extractStridedSlice_apply _ _ _ (ix2 k j) (ix2 (relationRow k) j) fun a => ?_
  match a with
  | ⟨0, _⟩ => rfl
  | ⟨1, _⟩ => show j.val = 0 + j.val; omega

theorem host_lhs_axis0 (i : S1x64.Idx) (q : dot_S1x128_S128x64_S1x64_1_0_0_1_n_n.contr.Idx) :
    (dot_S1x128_S128x64_S1x64_1_0_0_1_n_n.lhsIdx i q 0).val = (i 0).val := by
  unfold DotDims.lhsIdx
  rw [dif_neg (show ¬(0 : Fin S1x128.rank) ∈ dot_S1x128_S128x64_S1x64_1_0_0_1_n_n.lhsBatch by decide), dif_pos (show (0 : Fin S1x128.rank) ∈ dot_S1x128_S128x64_S1x64_1_0_0_1_n_n.lhsNonContracting by decide)]
  rfl
theorem host_lhs_axis1 (i : S1x64.Idx) (q : dot_S1x128_S128x64_S1x64_1_0_0_1_n_n.contr.Idx) :
    (dot_S1x128_S128x64_S1x64_1_0_0_1_n_n.lhsIdx i q 1).val = (q ⟨0, by decide⟩).val :=
  dot_S1x128_S128x64_S1x64_1_0_0_1_n_n.lhsIdx_val_of_single rfl i q
theorem host_rhs_axis0 (i : S1x64.Idx) (q : dot_S1x128_S128x64_S1x64_1_0_0_1_n_n.contr.Idx) :
    (dot_S1x128_S128x64_S1x64_1_0_0_1_n_n.rhsIdx i q 0).val = (q ⟨0, by decide⟩).val :=
  dot_S1x128_S128x64_S1x64_1_0_0_1_n_n.rhsIdx_val_of_single rfl i q
theorem host_rhs_axis1 (i : S1x64.Idx) (q : dot_S1x128_S128x64_S1x64_1_0_0_1_n_n.contr.Idx) :
    (dot_S1x128_S128x64_S1x64_1_0_0_1_n_n.rhsIdx i q 1).val = (i 1).val := by
  unfold DotDims.rhsIdx
  rw [dif_neg (show ¬(1 : Fin S128x64.rank) ∈ dot_S1x128_S128x64_S1x64_1_0_0_1_n_n.rhsBatch by decide), dif_pos (show (1 : Fin S128x64.rank) ∈ dot_S1x128_S128x64_S1x64_1_0_0_1_n_n.rhsNonContracting by decide)]
  rfl

/-- The host's [1,128] by [128,64] product at (0, j): the sum over k of the row at k times column j at k. -/
theorem hostProduct_at (l : FVec Ideal S1x128 .f32) (r : FVec Ideal S128x64 .f32) (j : Fin 64) :
    Host.dotGeneral dot_S1x128_S128x64_S1x64_1_0_0_1_n_n none l r (ix2 (0 : Fin 1) j) = ∑ k : Fin 128, l (ix2 (0 : Fin 1) k) * r (ix2 k j) := by
  simp only [Host.dotGeneral]
  rw [Ideal.dotGeneral_apply, ← Equiv.sum_comp (ValueIdx.contrEquiv1 dot_S1x128_S128x64_S1x64_1_0_0_1_n_n 128 rfl rfl).symm]
  refine Finset.sum_congr rfl fun k _ => ?_
  have hk := ValueIdx.contrEquiv1_symm_val dot_S1x128_S128x64_S1x64_1_0_0_1_n_n 128 rfl rfl k
  have el : dot_S1x128_S128x64_S1x64_1_0_0_1_n_n.lhsIdx (ix2 (0 : Fin 1) j) ((ValueIdx.contrEquiv1 dot_S1x128_S128x64_S1x64_1_0_0_1_n_n 128 rfl rfl).symm k) = ix2 (0 : Fin 1) k := funext fun ax => Fin.ext (by
    match ax with
    | ⟨0, _⟩ => exact host_lhs_axis0 _ _
    | ⟨1, _⟩ => exact (host_lhs_axis1 _ _).trans hk)
  have er : dot_S1x128_S128x64_S1x64_1_0_0_1_n_n.rhsIdx (ix2 (0 : Fin 1) j) ((ValueIdx.contrEquiv1 dot_S1x128_S128x64_S1x64_1_0_0_1_n_n 128 rfl rfl).symm k) = ix2 k j := funext fun ax => Fin.ext (by
    match ax with
    | ⟨0, _⟩ => exact (host_rhs_axis0 _ _).trans hk
    | ⟨1, _⟩ => exact host_rhs_axis1 _ _)
  rw [el, er]

/-- The vector the region receives as its bias is the latent bias: the latent against the upper 128 rows of W1, plus b1. -/
theorem biasVector_at (c : Dev nD) (j : Fin 64) :
    (V m c main_v5 : S64.Idx → EReal) (ix1 j)
      = latentBias (m ((c : Thread nD τ).loc main_arg0)) (m ((c : Thread nD τ).loc main_arg3)) (m ((c : Thread nD τ).loc main_arg4)) j := by
  have e : (V m c main_v5 : S64.Idx → EReal)
      = addf (F := Ideal) (shapeCast S64 (Host.dotGeneral (F := Ideal) dot_S1x128_S128x64_S1x64_1_0_0_1_n_n none
            (shapeCast S1x128 (m ((c : Thread nD τ).loc main_arg0)) shapeCasts_S128_S1x128 : FVec Ideal S1x128 .f32)
            (extractStridedSlice S128x64 ![0, 0] (m ((c : Thread nD τ).loc main_arg3)) slices_S192x64_S128x64_0_0 : FVec Ideal S128x64 .f32))
          shapeCasts_S1x64_S64) (m ((c : Thread nD τ).loc main_arg4)) := by
    dsimp only [Gen.V, Gen.hostOps0]; after_results; rfl
  rw [e]
  unfold latentBias
  rw [addf_apply, shapeCast_1a_a_apply, hostProduct_at]
  refine congrArg (· + _) (Finset.sum_congr rfl fun k _ => ?_)
  rw [shapeCast_a_1a_apply]
  have hs : extractStridedSlice S128x64 ![0, 0] (m ((c : Thread nD τ).loc main_arg3)) slices_S192x64_S128x64_0_0 (ix2 k j)
      = (m ((c : Thread nD τ).loc main_arg3) : S192x64.Idx → EReal) (ix2 (latentRow k) j) :=
    extractStridedSlice_apply _ _ _ (ix2 k j) (ix2 (latentRow k) j) fun a => by
      match a with
      | ⟨0, _⟩ => show k.val = 0 + k.val; omega
      | ⟨1, _⟩ => show j.val = 0 + j.val; omega
  rw [hs]

/-! ## The windows' blocks -/

/-- The printed index maps over the grid: the three pipelined windows move one row block per point, the four small
    arrays stay at their one block. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

theorem point_lt (t : Fin cfg0.N) : t.val < 100 := lt_of_lt_of_eq t.isLt N_0

/-- The edge in row r of point t's blocks. -/
abbrev edgeOf (t : Fin cfg0.N) (r : Fin 10000) : Fin 1000000 :=
  ⟨10000 * t.val + r.val, by have := point_lt t; omega⟩

/-- Point t's blocks of the six inputs, each at its literal shape. -/
abbrev featureBlock (c : Dev nD) (t : Fin cfg0.N) : Vec Ideal S10000x64 .f32 := iblk m c 0 t
abbrev edgeWeightBlock (c : Dev nD) (t : Fin cfg0.N) : Vec Ideal S10000x64 .f32 := iblk m c 1 t
abbrev firstWeightBlock (c : Dev nD) (t : Fin cfg0.N) : Vec Ideal S64x64 .f32 := iblk m c 2 t
abbrev biasBlock (c : Dev nD) (t : Fin cfg0.N) : Vec Ideal S64 .f32 := iblk m c 3 t
abbrev secondWeightBlock (c : Dev nD) (t : Fin cfg0.N) : Vec Ideal S64x64 .f32 := iblk m c 4 t
abbrev secondBiasBlock (c : Dev nD) (t : Fin cfg0.N) : Vec Ideal S64 .f32 := iblk m c 5 t

/-- Row r of point t's block of the relation features is the features of edge 10000 t + r. -/
theorem featureBlock_at (c : Dev nD) (t : Fin cfg0.N) (r : Fin 10000) (k : Fin 64) :
    featureBlock m c t (ix2 r k)
      = (m ((c : Thread nD τ).loc main_arg1) : S1000000x64.Idx → EReal) (ix2 (edgeOf t r) k) := by
  obtain ⟨h0, h1, -⟩ := index_facts t
  unfold featureBlock iblk
  rw [View.read_apply]
  show V m c main_arg1 _ = m (c.tc.loc main_arg1) _
  refine (congrFun (V_main_arg1 m c) _).trans (congrArg _ (funext fun a => Fin.ext ?_))
  match a with
  | ⟨0, _⟩ => show win0_0.index t (0 : Fin 2) * 10000 + 1 * r.val = 10000 * t.val + r.val; omega
  | ⟨1, _⟩ => show win0_0.index t (1 : Fin 2) * 64 + 1 * k.val = k.val; omega

/-- Row r of point t's block of the edge weights is the weights of edge 10000 t + r. -/
theorem edgeWeightBlock_at (c : Dev nD) (t : Fin cfg0.N) (r : Fin 10000) (k : Fin 64) :
    edgeWeightBlock m c t (ix2 r k)
      = (m ((c : Thread nD τ).loc main_arg2) : S1000000x64.Idx → EReal) (ix2 (edgeOf t r) k) := by
  obtain ⟨-, -, h0, h1, -⟩ := index_facts t
  unfold edgeWeightBlock iblk
  rw [View.read_apply]
  show V m c main_arg2 _ = m (c.tc.loc main_arg2) _
  refine (congrFun (V_main_arg2 m c) _).trans (congrArg _ (funext fun a => Fin.ext ?_))
  match a with
  | ⟨0, _⟩ => show win0_1.index t (0 : Fin 2) * 10000 + 1 * r.val = 10000 * t.val + r.val; omega
  | ⟨1, _⟩ => show win0_1.index t (1 : Fin 2) * 64 + 1 * k.val = k.val; omega

/-- The weight block at every point is the whole array the host code made. -/
theorem firstWeights_at (c : Dev nD) (t : Fin cfg0.N) (k j : Fin 64) :
    firstWeightBlock m c t (ix2 k j) = (V m c main_v1 : S64x64.Idx → EReal) (ix2 k j) := by
  obtain ⟨-, -, -, -, h0, h1, -⟩ := index_facts t
  unfold firstWeightBlock iblk
  rw [View.read_apply]
  show V m c main_v1 _ = V m c main_v1 _
  refine congrArg _ (funext fun a => Fin.ext ?_)
  match a with
  | ⟨0, _⟩ => show win0_2.index t (0 : Fin 2) * 64 + 1 * k.val = k.val; omega
  | ⟨1, _⟩ => show win0_2.index t (1 : Fin 2) * 64 + 1 * j.val = j.val; omega

/-- The bias block at every point is the whole vector the host code made. -/
theorem bias_at (c : Dev nD) (t : Fin cfg0.N) (j : Fin 64) :
    biasBlock m c t (ix1 j) = (V m c main_v5 : S64.Idx → EReal) (ix1 j) := by
  obtain ⟨-, -, -, -, -, -, h0, -⟩ := index_facts t
  unfold biasBlock iblk
  rw [View.read_apply]
  show V m c main_v5 _ = V m c main_v5 _
  refine congrArg _ (funext fun a => Fin.ext ?_)
  match a with
  | ⟨0, _⟩ => show win0_3.index t (0 : Fin 1) * 64 + 1 * j.val = j.val; omega

/-- The second layer's weight block at every point is W2 whole. -/
theorem secondWeights_eq (c : Dev nD) (t : Fin cfg0.N) :
    secondWeightBlock m c t = m ((c : Thread nD τ).loc main_arg5) := by
  obtain ⟨-, -, -, -, -, -, -, h0, h1, -⟩ := index_facts t
  funext y
  unfold secondWeightBlock iblk
  rw [View.read_apply]
  show V m c main_arg5 _ = m (c.tc.loc main_arg5) _
  refine (congrFun (V_main_arg5 m c) _).trans (congrArg _ (funext fun a => Fin.ext ?_))
  match a with
  | ⟨0, _⟩ => show win0_4.index t (0 : Fin 2) * 64 + 1 * (y 0).val = (y 0).val; omega
  | ⟨1, _⟩ => show win0_4.index t (1 : Fin 2) * 64 + 1 * (y 1).val = (y 1).val; omega

/-- The second layer's bias block at every point is b2 whole. -/
theorem secondBias_eq (c : Dev nD) (t : Fin cfg0.N) :
    secondBiasBlock m c t = m ((c : Thread nD τ).loc main_arg6) := by
  obtain ⟨-, -, -, -, -, -, -, -, -, h0, -⟩ := index_facts t
  funext y
  unfold secondBiasBlock iblk
  rw [View.read_apply]
  show V m c main_arg6 _ = m (c.tc.loc main_arg6) _
  refine (congrFun (V_main_arg6 m c) _).trans (congrArg _ (funext fun a => Fin.ext ?_))
  match a with
  | ⟨0, _⟩ => show win0_5.index t (0 : Fin 1) * 64 + 1 * (y 0).val = (y 0).val; omega

/-! ## What a point writes back, the cover, the run -/

theorem hz : (![0, 0] : Fin 2 → Nat) = fun _ => 0 := funext fun a => by fin_cases a <;> rfl
theorem hz1 : (![0] : Fin 1 → Nat) = fun _ => 0 := funext fun a => by fin_cases a; rfl

/-- The pre-activations the body forms in row r of point t are those of edge 10000 t + r. -/
theorem preAct_block (c : Dev nD) (t : Fin cfg0.N) (r : Fin 10000) :
    (fun j : Fin 64 => (∑ k : Fin 64, featureBlock m c t (ix2 r k) * firstWeightBlock m c t (ix2 k j)) + biasBlock m c t (ix1 j))
      = preAct (m ((c : Thread nD τ).loc main_arg0)) (m ((c : Thread nD τ).loc main_arg1)) (m ((c : Thread nD τ).loc main_arg3))
          (m ((c : Thread nD τ).loc main_arg4)) (edgeOf t r) := by
  funext j
  unfold preAct
  refine congrArg₂ (· + ·) (Finset.sum_congr rfl fun k _ => ?_) ?_
  · rw [featureBlock_at, firstWeights_at, weightBlock_at]
  · rw [bias_at, biasVector_at]

/-- WHAT POINT t WRITES BACK is its row block of the result function. -/
theorem flushed_eq (c : Dev nD) (t : Fin cfg0.N) :
    (dats m 0 c).flushed 6 t = ((cfg0.win 6).blk t).view.read (Elt Ideal) (outArr m c) := by
  rw [Cert.KernelIdeal.Value.flushed6]
  unfold out0_6
  rw [View.canon_unit_zero hz]
  simp only [View.ld_unit_zero (S := S10000x64) hz, View.ld_unit_zero (S := S64x64) hz, View.ld_unit_zero (S := S64) hz1]
  obtain ⟨-, -, -, -, -, -, -, -, -, -, h0, h1⟩ := index_facts t
  funext y
  show k0_pay1 (F := Ideal) (iblk m c 0 t) (iblk m c 1 t) (iblk m c 2 t) (iblk m c 3 t) (iblk m c 4 t) (iblk m c 5 t) y
    = outArr m c (((cfg0.win 6).blk t).view.emb y)
  have hr : ((cfg0.win 6).blk t).view.emb y = ix2 (edgeOf t (y 0)) (y 1) := funext fun a => Fin.ext (by
    match a with
    | ⟨0, _⟩ => show win0_6.index t (0 : Fin 2) * 10000 + 1 * (y 0).val = 10000 * t.val + (y 0).val; omega
    | ⟨1, _⟩ => show win0_6.index t (1 : Fin 2) * 64 + 1 * (y 1).val = (y 1).val; omega)
  rw [hr]
  refine (congrArg (k0_pay1 (F := Ideal) (iblk m c 0 t) (iblk m c 1 t) (iblk m c 2 t) (iblk m c 3 t) (iblk m c 4 t) (iblk m c 5 t)) (eq_ix2 y)).trans ?_
  refine (KernelBody.stored_at (featureBlock m c t) (edgeWeightBlock m c t) (firstWeightBlock m c t) (biasBlock m c t)
    (secondWeightBlock m c t) (secondBiasBlock m c t) (y 0) (y 1)).trans ?_
  have hB : (fun k : Fin 64 => edgeWeightBlock m c t (ix2 (y 0) k))
      = fun k => (m ((c : Thread nD τ).loc main_arg2) : S1000000x64.Idx → EReal) (ix2 (edgeOf t (y 0)) k) :=
    funext fun k => edgeWeightBlock_at m c t (y 0) k
  show clamped (fun j : Fin 64 => (∑ k : Fin 64, featureBlock m c t (ix2 (y 0) k) * firstWeightBlock m c t (ix2 k j)) + biasBlock m c t (ix1 j))
      (fun k : Fin 64 => edgeWeightBlock m c t (ix2 (y 0) k)) (secondWeightBlock m c t) (secondBiasBlock m c t) (y 1)
    = clamped (preAct (m ((c : Thread nD τ).loc main_arg0)) (m ((c : Thread nD τ).loc main_arg1)) (m ((c : Thread nD τ).loc main_arg3))
          (m ((c : Thread nD τ).loc main_arg4)) (edgeOf t (y 0)))
        (fun k => (m ((c : Thread nD τ).loc main_arg2) : S1000000x64.Idx → EReal) (ix2 (edgeOf t (y 0)) k))
        (m ((c : Thread nD τ).loc main_arg5)) (m ((c : Thread nD τ).loc main_arg6)) (y 1)
  rw [preAct_block m c t (y 0), hB, secondWeights_eq, secondBias_eq]

/-- An index of the output array is in point t's block iff each coordinate is in the block's range on its axis. -/
theorem mem_blk (t : Fin cfg0.N) (i : S1000000x64.Idx) :
    i ∈ ((cfg0.win 6).blk t).view.set ↔ ∀ a : Fin 2, win0_6.index t a * S10000x64.size a ≤ (i a).val ∧ (i a).val < win0_6.index t a * S10000x64.size a + S10000x64.size a := by
  show i ∈ ((View.whole main_v6).slice (win0_6.rect t)).set ↔ _
  rw [View.set_slice_whole, Rect.mem_set_unit]
  exact Iff.rfl

/-- Every entry of the output array is in the block of the point its row belongs to. -/
theorem covered (i : S1000000x64.Idx) :
    ∃ t : Fin cfg0.N, (cfg0.win 6).flush t = true ∧ i ∈ ((cfg0.win 6).blk t).view.set := by
  have hi0 : (i 0).val < 1000000 := (i 0).isLt
  have hi1 : (i 1).val < 64 := (i 1).isLt
  have hN : cfg0.N = 100 := N_0
  refine ⟨⟨(i 0).val / 10000, by rw [hN]; omega⟩, flush0_6 _, ?_⟩
  rw [mem_blk]
  obtain ⟨-, -, -, -, -, -, -, -, -, -, h0, h1⟩ := index_facts ⟨(i 0).val / 10000, by rw [hN]; omega⟩
  intro a
  match a with
  | ⟨0, _⟩ =>
    show win0_6.index _ (0 : Fin 2) * 10000 ≤ (i 0).val ∧ (i 0).val < win0_6.index _ (0 : Fin 2) * 10000 + 10000
    rw [h0]
    show (i 0).val / 10000 * 10000 ≤ (i 0).val ∧ (i 0).val < (i 0).val / 10000 * 10000 + 10000
    omega
  | ⟨1, _⟩ =>
    show win0_6.index _ (1 : Fin 2) * 64 ≤ (i 1).val ∧ (i 1).val < win0_6.index _ (1 : Fin 2) * 64 + 64
    rw [h1]
    omega

/-- THE OUTPUT ARRAY after the run is the result function of the arguments. -/
theorem final (c : Dev nD) : (dats m 0 c).arrAt 6 cfg0.N = outArr m c :=
  (dats m 0 c).arrAt_eq_of_cover 6 (outArr m c) (fun t _ => flushed_eq m c t) covered

/-- The run, read: the output array at the result function, the seven arguments unchanged. -/
theorem run : θ_run defs (onTc (τ := τ) (main (F := Ideal))) ⟨m, fun _ => 0, ρ⟩ fun r => ∀ c : Dev nD,
      r.2.mem ((c : Thread nD τ).loc main_v6) = outArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩)
    (Cert.KernelIdeal.Value.run_blocks m ρ)

end Cert.EdgeMessage.KernelSide

end
-- ==== Proof.ReferenceSide.lean ====
/-
  The reference program computes the result function of Proof/EdgeMessage.lean.

  Its stages are read one at a time at an entry (e, j): the concatenated row (the latent broadcast to every edge, then the
  edge's relation features) by the column's side of 128; the first contraction over all 192 columns, which is the hoisted
  form by EdgeMessage.preActConcat_eq; relu, the second layer and the weights, which give the edge's message; the sum of
  the squared message row and its square root, the row's norm; the compare, maximum, quotient and select, the clamp factor.
-/
import proofs.«146558_j335007449151_1_alg».proof.Proof.Gen.ReferenceIdeal.Read
import proofs.«146558_j335007449151_1_alg».proof.Proof.EdgeMessage

noncomputable section

namespace Cert.EdgeMessage.ReferenceSide

open Cert.ReferenceIdeal Cert.ReferenceIdeal.Gen Cert.ReferenceIdeal.Read
open Idealize.ShloMosaic Idealize.ShloMosaic.ValueIdx Cert.EdgeMessage

variable (x0 : (⟨S128, .f32⟩ : BufTy).Contents (Elt Ideal)) (x1 x2 : (⟨S1000000x64, .f32⟩ : BufTy).Contents (Elt Ideal))
  (x3 : (⟨S192x64, .f32⟩ : BufTy).Contents (Elt Ideal)) (x4 : (⟨S64, .f32⟩ : BufTy).Contents (Elt Ideal))
  (x5 : (⟨S64x64, .f32⟩ : BufTy).Contents (Elt Ideal)) (x6 : (⟨S64, .f32⟩ : BufTy).Contents (Elt Ideal))

/-- The concatenation at (e, k): the latent's entry k on the first 128 columns, the edge's feature k - 128 after. -/
theorem concat_at (e : Fin 1000000) (k : Fin 192) :
    val_main_v1 (F := Ideal) x0 x1 (ix2 e k) = concatRow x0 x1 e k := by
  unfold val_main_v1 concatRow
  by_cases h : k.val < 128
  · rw [dif_pos h]
    refine (concatenate_pair_apply_left (s₁ := S1000000x128) (s₂ := S1000000x64) _ _ _ _ (ix2 e k) rfl (ix2 e (⟨k.val, h⟩ : Fin 128)) (fun b => ?_)).trans ?_
    · match b with
      | ⟨0, _⟩ => rfl
      | ⟨1, _⟩ => rfl
    · rw [val_main_v0_apply]
      exact congrArg x0 (funext fun a => by match a with | ⟨0, _⟩ => rfl)
  · rw [dif_neg h]
    refine concatenate_pair_apply_right (s₁ := S1000000x128) (s₂ := S1000000x64) _ _ _ _ (ix2 e k) rfl rfl (ix2 e (⟨k.val - 128, by omega⟩ : Fin 64)) (fun b hb => ?_) ?_
    · match b with
      | ⟨0, _⟩ => rfl
      | ⟨1, _⟩ => exact absurd rfl hb
    · show (k.val - 128) + 128 = k.val
      omega

/-- The first layer at (e, j), before relu: the hoisted pre-activation. -/
theorem preAct_at (e : Fin 1000000) (j : Fin 64) :
    val_main_v5 (F := Ideal) x0 x1 x3 x4 (ix2 e j) = preAct x0 x1 x3 x4 e j := by
  rw [← preActConcat_eq]
  unfold preActConcat
  rw [val_main_v5_apply, val_main_v2_apply, val_main_v4_apply, val_main_v3_apply]
  have hl : ∀ k : Fin 192, lidx_main_v2 (ix2 e j) k = ix2 e k := fun k =>
    funext fun a => by match a with | ⟨0, _⟩ => rfl | ⟨1, _⟩ => rfl
  have hr : ∀ k : Fin 192, ridx_main_v2 (ix2 e j) k = ix2 k j := fun k =>
    funext fun a => by match a with | ⟨0, _⟩ => rfl | ⟨1, _⟩ => rfl
  have hb : idx_main_v3 (idx_main_v4 (ix2 e j)) = ix1 j :=
    funext fun a => by match a with | ⟨0, _⟩ => rfl
  simp only [hl, hr, hb, concat_at, Ideal.addf_def]

/-- The edge's message at (e, j). -/
theorem message_at (e : Fin 1000000) (j : Fin 64) :
    val_main_v11 (F := Ideal) x0 x1 x2 x3 x4 x5 x6 (ix2 e j)
      = message (preAct x0 x1 x3 x4 e) (fun k => x2 (ix2 e k)) x5 x6 j := by
  unfold message
  rw [val_main_v11_apply, val_main_v10_apply, val_main_v7_apply, val_main_v9_apply, val_main_v8_apply]
  have hl : ∀ k : Fin 64, lidx_main_v7 (ix2 e j) k = ix2 e k := fun k =>
    funext fun a => by match a with | ⟨0, _⟩ => rfl | ⟨1, _⟩ => rfl
  have hr : ∀ k : Fin 64, ridx_main_v7 (ix2 e j) k = ix2 k j := fun k =>
    funext fun a => by match a with | ⟨0, _⟩ => rfl | ⟨1, _⟩ => rfl
  have hb : idx_main_v8 (idx_main_v9 (ix2 e j)) = ix1 j :=
    funext fun a => by match a with | ⟨0, _⟩ => rfl
  simp only [hl, hr, hb, val_main_v6_apply, val_main_call0_v0_apply, val_main_call0_cst_apply, preAct_at,
    Ideal.addf_def, Ideal.mulf_def, Ideal.maximumf_def, Ideal.ofBits_def]

/-- The norm of the edge's message row, at the one column of the keepdims array. -/
theorem norm_at (e : Fin 1000000) :
    val_main_v12 (F := Ideal) x0 x1 x2 x3 x4 x5 x6 (ix2 e (0 : Fin 1))
      = rowNorm (message (preAct x0 x1 x3 x4 e) (fun k => x2 (ix2 e k)) x5 x6) := by
  unfold rowNorm
  rw [val_main_v12_apply, val_main_call1_v2_apply, val_main_call1_v1_apply]
  have hk : ∀ k : Fin 64, idx_main_call1_v1 (idx_main_call1_v2 (ix2 e (0 : Fin 1))) k = ix2 e k := fun k =>
    funext fun a => by match a with | ⟨0, _⟩ => rfl | ⟨1, _⟩ => rfl
  simp only [hk, val_main_call1_v0_apply, message_at, val_main_call1_cst_apply, Ideal.hostUnary_sqrt_def,
    Ideal.mulf_def, Ideal.ofBits_def, Ideal.ofBits_zero_f32, zero_add]

/-- The reference's last stage is the result function of the arguments. -/
theorem stage_eq_result :
    val_main_v21 (F := Ideal) x0 x1 x2 x3 x4 x5 x6 = result x0 x1 x2 x3 x4 x5 x6 := by
  funext i
  obtain ⟨e, j, rfl⟩ : ∃ (e : Fin 1000000) (j : Fin 64), i = ix2 e j := ⟨i 0, i 1, eq_ix2 i⟩
  show _ = clamped (preAct x0 x1 x3 x4 e) (fun k => x2 (ix2 e k)) x5 x6 j
  unfold clamped clampFactor
  rw [val_main_v21_apply, val_main_v20_apply, val_main_v19_apply, val_main_v14_apply, val_main_v18_apply,
    val_main_v16_apply]
  have h0 : idx_main_v20 (ix2 e j) = ix2 e (0 : Fin 1) :=
    funext fun a => by match a with | ⟨0, _⟩ => rfl | ⟨1, _⟩ => rfl
  simp only [h0, norm_at, message_at, val_main_v13_apply, val_main_cst_apply, val_main_v15_apply, val_main_cst_0_apply,
    val_main_v17_apply, val_main_cst_1_apply, val_main_call2_v1_apply, val_main_call2_v0_apply, val_main_cst_2_apply,
    Ideal.cmpf_def, Ideal.hostDivf_def, Ideal.maximumf_def, Ideal.mulf_def, Ideal.ofBits_def]

end Cert.EdgeMessage.ReferenceSide

end
-- ==== Proof.lean ====
/-
  The edge-message kernel against its jnp reference, over the extended reals.

  Both programs take a node latent z (128), per-edge relation features M and weights f (each 1000000 × 64), and a two-layer
  perceptron W1 (192 × 64), b1, W2 (64 × 64), b2, and return, for every edge e and output unit j,

      msg(e, j) · clamp(‖msg(e, ·)‖),   msg(e, j) = ((relu(pre(e, ·)) · W2)(j) + b2(j)) · f(e, j),

  where clamp(n) is 1 / max(n, 1) if n > 1 and 1 otherwise. They differ only in how the first layer's pre-activation
  pre(e, j) is formed. The reference contracts the concatenated row (z, M[e, ·]) with all 192 rows of W1 and adds b1(j). The
  kernel's host code forms the edge-independent part once — z against the upper 128 rows of W1, plus b1 — and each grid
  point adds its edges' features against the lower 64 rows. The two agree because a sum over 192 terms is the sum of its
  first 128 and its last 64 terms and addition of extended reals is commutative and associative; no finiteness of the
  inputs is used (Proof/EdgeMessage.lean, preActConcat_eq). The kernel's bf16 casts are the identity on the extended reals,
  its matrix products and the reference's dot_generals are the same sums, and so are the lane reduction and the host reduce.

  Proof/ReferenceSide.lean reads the reference's run stage by stage into that result function; Proof/KernelBody.lean reads
  the kernel body's one store at an entry of its block; Proof/KernelSide.lean reads the host prefix and the 100 row blocks
  and concludes that the output array ends holding the same function. The three frames are the generated ones (the
  reference's is its run with the result dropped), and the idealization rewrote no operation.
-/
import proofs.«146558_j335007449151_1_alg».proof.Defs
import proofs.«146558_j335007449151_1_alg».proof.Proof.Gen.Kernel
import proofs.«146558_j335007449151_1_alg».proof.Proof.Gen.Kernel.Skeleton
import proofs.«146558_j335007449151_1_alg».proof.Proof.Gen.Kernel.Launch
import proofs.«146558_j335007449151_1_alg».proof.Proof.Gen.Kernel.Points
import proofs.«146558_j335007449151_1_alg».proof.Proof.Gen.Kernel.Frame
import proofs.«146558_j335007449151_1_alg».proof.Proof.Gen.KernelIdeal
import proofs.«146558_j335007449151_1_alg».proof.Proof.Gen.KernelIdeal.Skeleton
import proofs.«146558_j335007449151_1_alg».proof.Proof.Gen.KernelIdeal.Launch
import proofs.«146558_j335007449151_1_alg».proof.Proof.Gen.KernelIdeal.Points
import proofs.«146558_j335007449151_1_alg».proof.Proof.Gen.KernelIdeal.Frame
import proofs.«146558_j335007449151_1_alg».proof.Proof.Gen.ReferenceIdeal
import proofs.«146558_j335007449151_1_alg».proof.Proof.Gen.Pre_finite_inputs
import proofs.«146558_j335007449151_1_alg».proof.Proof.Gen.KernelIdeal.Value
import proofs.«146558_j335007449151_1_alg».proof.Proof.Gen.ReferenceIdeal.Run
import proofs.«146558_j335007449151_1_alg».proof.Proof.Gen.ReferenceIdeal.Read
import proofs.«146558_j335007449151_1_alg».proof.Proof.KernelSide
import proofs.«146558_j335007449151_1_alg».proof.Proof.ReferenceSide
import Idealize.ShloMosaic.Adequacy
import Idealize.ShloMosaic.Init

noncomputable section

namespace Cert.Proof

open Idealize.ShloMosaic Idealize.SL.Sem

/-- The kernel at the word level terminates without a fault and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing, so there is nothing to preserve. -/
theorem preserves : Cert.preserves_Kernel_KernelIdeal := trivial

/-- From memories that agree on the seven arguments both programs end with the output array at the result function of
    those arguments: the kernel by its row blocks, the reference stage by stage. -/
theorem algebraic : Cert.algebraic_KernelIdeal_ReferenceIdeal := by
  intro m ρ m' ρ' _ hagree
  refine ⟨fun c => Cert.EdgeMessage.KernelSide.outArr m c, Cert.EdgeMessage.KernelSide.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.EdgeMessage.ReferenceSide.stage_eq_result]
  obtain ⟨h0, h1, h2, h3, h4, h5, h6⟩ := hagree c
  rw [h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
